-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩

abbrev nBuf : Space → Nat
  | .hbm => 64
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .bf16⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .bf16⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .bf16⟩
  | .local _ .vmem, ⟨4, _⟩ => ⟨S10000x128, .bf16⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S10000x128_S10000x128_0_0 : (Rect.unit (s := S10000x128) ![0, 0] S10000x128.size inb_S10000x128_S10000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.LibHostSim.lean ====
/-
  Two straight lines of host operations over two different buffer signatures, compared operation by operation.

  When two programs state the same StableHLO text, their host operations write, one after the other, the HBM
  buffers of consecutive indices, each from buffers written before it, through the same pure function. If the two
  launch memories agree on the buffers below an index `n` (the arguments), then after the two lines they agree on
  every buffer the lines wrote: by induction over the lines, one operation at a time (`Step`), with no operation's
  function ever opened. The buffers' content types live over two signatures, so agreement is heterogeneous
  equality; at literal references both types compute to the same type and it is equality.
-/
import Idealize.ShloMosaic.Lib.StableHlo.Run

namespace HostSim

open Idealize.ShloMosaic Idealize.ShloMosaic.StableHlo Idealize.ShloMosaic.TcCoe

variable {τ₁ τ₂ : Topo} {sig₁ sig₂ : RefSig} {Val : EltTy → Type}

/-- A function applied to an argument, across equal types. -/
theorem heq_app {α α' β β' : Type} (hα : α = α') (hβ : β = β') {f : α → β} {f' : α' → β'} (hf : HEq f f')
    {a : α} {a' : α'} (ha : HEq a a') : HEq (f a) (f' a') := by
  subst hα; subst hβ; cases hf; cases ha; rfl

/-- An HBM reference is its index. -/
theorem ref_ext {sig : RefSig} {a b : Ref sig .tc} (ha : a.space = .hbm) (hb : b.space = .hbm)
    (h : a.idx.val = b.idx.val) : a = b := by
  obtain ⟨sa, ia, na⟩ := a
  obtain ⟨sb, ib, nb⟩ := b
  dsimp only at ha hb h
  subst ha; subst hb
  have : ia = ib := Fin.ext h
  subst this
  rfl

/-- The two valuations hold the same contents in the HBM buffers of equal index below `n`. -/
def Agree (n : ℕ) (V₁ : Valuation τ₁ sig₁ Val) (V₂ : Valuation τ₂ sig₂ Val) : Prop :=
  ∀ (a : Ref sig₁ .tc) (b : Ref sig₂ .tc), a.space = .hbm → b.space = .hbm → a.idx.val = b.idx.val → a.idx.val < n →
    HEq (V₁ (Proc.devRef .tc a)) (V₂ (Proc.devRef .tc b))

/-- One operation of each line, run side by side, extends the agreement by the buffer of index `n`. -/
def Step (n : ℕ) (op₁ : HloOp τ₁ sig₁ Val) (op₂ : HloOp τ₂ sig₂ Val) : Prop :=
  ∀ V₁ V₂, Agree n V₁ V₂ → Agree (n + 1) (op₁.result V₁) (op₂.result V₂)

/-- A step from its parts: each operation writes only its result buffer, the two result buffers are the HBM
    buffers of index `n`, and the results agree whenever the valuations agree below `n`. -/
theorem step_of (n : ℕ) (op₁ : HloOp τ₁ sig₁ Val) (op₂ : HloOp τ₂ sig₂ Val) (y₁ : Ref sig₁ .tc) (y₂ : Ref sig₂ .tc)
    (hy₁ : y₁.space = .hbm ∧ y₁.idx.val = n) (hy₂ : y₂.space = .hbm ∧ y₂.idx.val = n)
    (hne₁ : ∀ (V : Valuation τ₁ sig₁ Val) (r : Ref sig₁ .tc), r ≠ y₁ → op₁.result V (Proc.devRef .tc r) = V (Proc.devRef .tc r))
    (hne₂ : ∀ (V : Valuation τ₂ sig₂ Val) (r : Ref sig₂ .tc), r ≠ y₂ → op₂.result V (Proc.devRef .tc r) = V (Proc.devRef .tc r))
    (hval : ∀ V₁ V₂, Agree n V₁ V₂ → HEq (op₁.result V₁ (Proc.devRef .tc y₁)) (op₂.result V₂ (Proc.devRef .tc y₂))) :
    Step n op₁ op₂ := by
  intro V₁ V₂ h a b ha hb hab hlt
  by_cases hn : a.idx.val = n
  · have ea : a = y₁ := ref_ext ha hy₁.1 (hn.trans hy₁.2.symm)
    have eb : b = y₂ := ref_ext hb hy₂.1 ((hab.symm.trans hn).trans hy₂.2.symm)
    subst ea; subst eb
    exact hval V₁ V₂ h
  · have na : a ≠ y₁ := fun e => hn (e ▸ hy₁.2)
    have nb : b ≠ y₂ := fun e => hn (hab.trans (e ▸ hy₂.2))
    rw [hne₁ V₁ a na, hne₂ V₂ b nb]
    exact h a b ha hb hab (by omega)

/-- Two operand buffers that correspond: HBM buffers of one index below `n`, of one type. -/
structure Opnd (n : ℕ) (x₁ : Ref sig₁ .tc) (x₂ : Ref sig₂ .tc) : Prop where
  hbm₁ : x₁.space = .hbm
  hbm₂ : x₂.space = .hbm
  idx : x₁.idx.val = x₂.idx.val
  lt : x₁.idx.val < n
  ty : x₁.ty = x₂.ty

/-- Two result buffers that correspond: the HBM buffers of index `n`, of one type. -/
structure Res (n : ℕ) (y₁ : Ref sig₁ .tc) (y₂ : Ref sig₂ .tc) : Prop where
  hbm₁ : y₁.space = .hbm
  idx₁ : y₁.idx.val = n
  hbm₂ : y₂.space = .hbm
  idx₂ : y₂.idx.val = n
  ty : y₁.ty = y₂.ty

theorem Opnd.heq {n : ℕ} {x₁ : Ref sig₁ .tc} {x₂ : Ref sig₂ .tc} (o : Opnd n x₁ x₂) {V₁ : Valuation τ₁ sig₁ Val}
    {V₂ : Valuation τ₂ sig₂ Val} (h : Agree n V₁ V₂) : HEq (V₁ (Proc.devRef .tc x₁)) (V₂ (Proc.devRef .tc x₂)) :=
  h x₁ x₂ o.hbm₁ o.hbm₂ o.idx o.lt

theorem Opnd.cty {n : ℕ} {x₁ : Ref sig₁ .tc} {x₂ : Ref sig₂ .tc} (o : Opnd n x₁ x₂) :
    x₁.ty.Contents Val = x₂.ty.Contents Val := congrArg (fun T : BufTy => T.Contents Val) o.ty

theorem Res.cty {n : ℕ} {y₁ : Ref sig₁ .tc} {y₂ : Ref sig₂ .tc} (o : Res n y₁ y₂) :
    y₁.ty.Contents Val = y₂.ty.Contents Val := congrArg (fun T : BufTy => T.Contents Val) o.ty

/-- `%y = ‹constant›` on both sides. -/
theorem nullary_step {n : ℕ} {y₁ : Ref sig₁ .tc} {y₂ : Ref sig₂ .tc} {v₁ : y₁.ty.Contents Val} {v₂ : y₂.ty.Contents Val}
    {hy₁ hy₂} (ry : Res n y₁ y₂) (hv : HEq v₁ v₂) :
    Step n (nullary (τ := τ₁) y₁ v₁ hy₁) (nullary (τ := τ₂) y₂ v₂ hy₂) :=
  step_of n _ _ y₁ y₂ ⟨ry.hbm₁, ry.idx₁⟩ ⟨ry.hbm₂, ry.idx₂⟩
    (fun V _ h => nullary_result_ne _ v₁ hy₁ V h) (fun V _ h => nullary_result_ne _ v₂ hy₂ V h)
    (fun V₁ V₂ _ => by rw [nullary_result, nullary_result]; exact hv)

/-- `%y = ‹op› %x` on both sides. -/
theorem unary_step {n : ℕ} {x₁ y₁ : Ref sig₁ .tc} {x₂ y₂ : Ref sig₂ .tc}
    {f₁ : x₁.ty.Contents Val → y₁.ty.Contents Val} {f₂ : x₂.ty.Contents Val → y₂.ty.Contents Val} {hx₁ hy₁ hx₂ hy₂}
    (ox : Opnd n x₁ x₂) (ry : Res n y₁ y₂) (hf : HEq f₁ f₂) :
    Step n (unary (τ := τ₁) x₁ y₁ f₁ hx₁ hy₁) (unary (τ := τ₂) x₂ y₂ f₂ hx₂ hy₂) :=
  step_of n _ _ y₁ y₂ ⟨ry.hbm₁, ry.idx₁⟩ ⟨ry.hbm₂, ry.idx₂⟩
    (fun V _ h => unary_result_ne _ _ f₁ hx₁ hy₁ V h) (fun V _ h => unary_result_ne _ _ f₂ hx₂ hy₂ V h)
    (fun V₁ V₂ h => by rw [unary_result, unary_result]; exact heq_app ox.cty ry.cty hf (ox.heq h))

/-- `%y = ‹op› %a, %b` on both sides. -/
theorem binary_step {n : ℕ} {a₁ b₁ y₁ : Ref sig₁ .tc} {a₂ b₂ y₂ : Ref sig₂ .tc}
    {f₁ : a₁.ty.Contents Val → b₁.ty.Contents Val → y₁.ty.Contents Val}
    {f₂ : a₂.ty.Contents Val → b₂.ty.Contents Val → y₂.ty.Contents Val} {ha₁ hb₁ hy₁ ha₂ hb₂ hy₂}
    (oa : Opnd n a₁ a₂) (ob : Opnd n b₁ b₂) (ry : Res n y₁ y₂) (hf : HEq f₁ f₂) :
    Step n (binary (τ := τ₁) a₁ b₁ y₁ f₁ ha₁ hb₁ hy₁) (binary (τ := τ₂) a₂ b₂ y₂ f₂ ha₂ hb₂ hy₂) :=
  step_of n _ _ y₁ y₂ ⟨ry.hbm₁, ry.idx₁⟩ ⟨ry.hbm₂, ry.idx₂⟩
    (fun V _ h => binary_result_ne _ _ _ f₁ ha₁ hb₁ hy₁ V h) (fun V _ h => binary_result_ne _ _ _ f₂ ha₂ hb₂ hy₂ V h)
    (fun V₁ V₂ h => by
      rw [binary_result, binary_result]
      exact heq_app ob.cty ry.cty (heq_app oa.cty (by rw [ob.cty, ry.cty]) hf (oa.heq h)) (ob.heq h))

/-- `%y = ‹op› %c, %a, %b` on both sides. -/
theorem ternary_step {n : ℕ} {c₁ a₁ b₁ y₁ : Ref sig₁ .tc} {c₂ a₂ b₂ y₂ : Ref sig₂ .tc}
    {f₁ : c₁.ty.Contents Val → a₁.ty.Contents Val → b₁.ty.Contents Val → y₁.ty.Contents Val}
    {f₂ : c₂.ty.Contents Val → a₂.ty.Contents Val → b₂.ty.Contents Val → y₂.ty.Contents Val}
    {hc₁ ha₁ hb₁ hy₁ hc₂ ha₂ hb₂ hy₂}
    (oc : Opnd n c₁ c₂) (oa : Opnd n a₁ a₂) (ob : Opnd n b₁ b₂) (ry : Res n y₁ y₂) (hf : HEq f₁ f₂) :
    Step n (ternary (τ := τ₁) c₁ a₁ b₁ y₁ f₁ hc₁ ha₁ hb₁ hy₁) (ternary (τ := τ₂) c₂ a₂ b₂ y₂ f₂ hc₂ ha₂ hb₂ hy₂) :=
  step_of n _ _ y₁ y₂ ⟨ry.hbm₁, ry.idx₁⟩ ⟨ry.hbm₂, ry.idx₂⟩
    (fun V _ h => ternary_result_ne _ _ _ _ f₁ hc₁ ha₁ hb₁ hy₁ V h) (fun V _ h => ternary_result_ne _ _ _ _ f₂ hc₂ ha₂ hb₂ hy₂ V h)
    (fun V₁ V₂ h => by
      rw [ternary_result, ternary_result]
      exact heq_app ob.cty ry.cty
        (heq_app oa.cty (by rw [ob.cty, ry.cty]) (heq_app oc.cty (by rw [oa.cty, ob.cty, ry.cty]) hf (oc.heq h)) (oa.heq h))
        (ob.heq h))

/-- The row-major re-indexing of equal contents between equal types. -/
theorem reshape_heq {T₁ T₂ U₁ U₂ : BufTy} (tx : T₁ = T₂) (ty : U₁ = U₂)
    (he₁ : T₁.elt = U₁.elt) (hn₁ : T₁.shape.ShapeCasts U₁.shape) (he₂ : T₂.elt = U₂.elt) (hn₂ : T₂.shape.ShapeCasts U₂.shape)
    (u₁ : T₁.Contents Val) (u₂ : T₂.Contents Val) (hu : HEq u₁ u₂) :
    HEq (fun i => he₁ ▸ shapeCast U₁.shape u₁ hn₁ i : U₁.Contents Val) (fun i => he₂ ▸ shapeCast U₂.shape u₂ hn₂ i : U₂.Contents Val) := by
  subst tx; subst ty; cases hu; rfl

/-- `%y = reshape %x` on both sides: the row-major re-indexing is one function of the two shapes. -/
theorem reshape_step {n : ℕ} {x₁ y₁ : Ref sig₁ .tc} {x₂ y₂ : Ref sig₂ .tc} {he₁ hn₁ hx₁ hy₁ he₂ hn₂ hx₂ hy₂}
    (ox : Opnd n x₁ x₂) (ry : Res n y₁ y₂) :
    Step n (reshape (τ := τ₁) (Val := Val) x₁ y₁ he₁ hn₁ hx₁ hy₁) (reshape (τ := τ₂) (Val := Val) x₂ y₂ he₂ hn₂ hx₂ hy₂) :=
  step_of n _ _ y₁ y₂ ⟨ry.hbm₁, ry.idx₁⟩ ⟨ry.hbm₂, ry.idx₂⟩
    (fun V _ h => reshape_result_ne _ _ he₁ hn₁ hx₁ hy₁ V h) (fun V _ h => reshape_result_ne _ _ he₂ hn₂ hx₂ hy₂ V h)
    (fun V₁ V₂ h => by
      rw [reshape_result, reshape_result]
      exact reshape_heq ox.ty ry.ty he₁ hn₁ he₂ hn₂ _ _ (ox.heq h))

/-! ## Lines -/

/-- Two lines of equal length whose operations step side by side from index `n` to index `k`. -/
inductive Sim : ℕ → List (HloOp τ₁ sig₁ Val) → List (HloOp τ₂ sig₂ Val) → ℕ → Prop
  | nil (n : ℕ) : Sim n [] [] n
  | cons {n k : ℕ} {o₁ : HloOp τ₁ sig₁ Val} {o₂ : HloOp τ₂ sig₂ Val} {l₁ l₂} :
      Step n o₁ o₂ → Sim (n + 1) l₁ l₂ k → Sim n (o₁ :: l₁) (o₂ :: l₂) k

theorem Sim.after {n k : ℕ} {l₁ : List (HloOp τ₁ sig₁ Val)} {l₂ : List (HloOp τ₂ sig₂ Val)} (s : Sim n l₁ l₂ k) :
    ∀ {V₁ V₂}, Agree n V₁ V₂ → Agree k (StableHlo.after l₁ V₁) (StableHlo.after l₂ V₂) := by
  induction s with
  | nil n => intro V₁ V₂ h; exact h
  | cons hs _ ih => intro V₁ V₂ h; exact ih (hs V₁ V₂ h)

theorem Sim.append {n k k' : ℕ} {l₁ l₁' : List (HloOp τ₁ sig₁ Val)} {l₂ l₂' : List (HloOp τ₂ sig₂ Val)}
    (s : Sim n l₁ l₂ k) (s' : Sim k l₁' l₂' k') : Sim n (l₁ ++ l₁') (l₂ ++ l₂') k' := by
  induction s with
  | nil n => exact s'
  | cons hs _ ih => exact Sim.cons hs (ih s')

end HostSim
-- ==== Proof.RefSplit.lean ====
import proofs.«115135_j48086453846714_1_alg».proof.Proof.RefOps
import Idealize.ShloMosaic.Lib.Pipeline.Frame

noncomputable section

namespace Cert.ReferenceIdeal.Split

open Cert.ReferenceIdeal Cert.ReferenceIdeal.Gen Idealize.ShloMosaic Idealize.ShloMosaic.TcCoe Idealize.SL.Sem Idealize.ShloMosaic.StableHlo

variable {F : FTy → Type} [FloatOps F]

/-! The reference's operations in five stretches. The first three are the operations the kernel's program also
    states before its first region: the edge lists with their self loops, the degrees, their inverse square roots
    (zero where the degree is not positive) and the edge weights. The fourth runs from the matrix product to the sum
    of the aggregate and the bias; the fifth is the outlined cut-off at zero. -/

set_option maxRecDepth 8192 in
/-- The program's operation list is the five stretches in order. -/
theorem ops_split : (Value.ops : List (HloOp τ sig (Elt F))) = edgesAndDegrees ++ (whereCall ++ (edgeWeights ++ (productToSum ++ reluCall))) := rfl

/-- The buffer contents when the matrix product is reached, from launch contents `W`. -/
abbrev atProduct (W : Valuation τ sig (Elt F)) : Valuation τ sig (Elt F) :=
  StableHlo.after edgeWeights (StableHlo.after whereCall (StableHlo.after edgesAndDegrees W))

theorem after_ops (W : Valuation τ sig (Elt F)) :
    StableHlo.after (Value.ops : List (HloOp τ sig (Elt F))) W = StableHlo.after reluCall (StableHlo.after productToSum (atProduct W)) := by
  rw [ops_split, StableHlo.after_append, StableHlo.after_append, StableHlo.after_append, StableHlo.after_append]

/-- The outlined cut-off, from any contents: the result is the sum buffer's contents against the zero matrix, the larger
    entry by entry. -/
theorem relu_after (Y : Valuation τ sig (Elt F)) :
    StableHlo.after reluCall Y (Proc.devRef .tc main_v47)
      = maximumf (Y (Proc.devRef .tc main_v46) : (⟨S100000x128, .f32⟩ : BufTy).Contents (Elt F))
          (broadcastInDim S100000x128 ![] bcast_S_S100000x128 (constant S_ .f32 0x00000000#32)) := by
  after_results_simp <;> rfl

set_option maxRecDepth 8192 in
set_option maxHeartbeats 4000000 in
/-- Every weakly fair execution of the reference terminates with its result at the cut-off of what the fourth stretch
    leaves in the sum buffer, over the contents the first three stretches leave, and with its arguments as launched. -/
theorem run_after (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = maximumf (StableHlo.after productToSum (atProduct (launchContents m c)) (Proc.devRef .tc main_v46) : (⟨S100000x128, .f32⟩ : BufTy).Contents (Elt F))
              (broadcastInDim S100000x128 ![] bcast_S_S100000x128 (constant S_ .f32 0x00000000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v47).trans ((congrFun (after_ops (launchContents m c)) _).trans (relu_after _)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq Value.scopedRefs_eq Value.scopedSems_eq defs main (fun _ => Value.ops) Value.main_eq (fun _ => Value.ops_sub) m ρ)

end Cert.ReferenceIdeal.Split

end
-- ==== Proof.Prefix.lean ====
import proofs.«115135_j48086453846714_1_alg».proof.Proof.LibHostSim
import proofs.«115135_j48086453846714_1_alg».proof.Proof.RefSplit
import proofs.«115135_j48086453846714_1_alg».proof.Proof.Gen.KernelIdeal.Frame

set_option maxRecDepth 16384

noncomputable section

namespace Cert.Bridge

open Idealize.ShloMosaic Idealize.ShloMosaic.StableHlo Idealize.ShloMosaic.TcCoe Idealize.SL.Sem HostSim

variable {F : FTy → Type} [FloatOps F]

/-! Before its first region the kernel's program states, one for one, the operations the reference states before its
    matrix product, into buffers of the same numbers and types: the edge lists with their self loops, the degrees,
    their inverse square roots and the edge weights. Run side by side from launch contents that agree on the four
    arguments, the two lines leave the same contents in every buffer they wrote; no operation is opened. -/

local macro "nul" : tactic => `(tactic| refine Sim.cons (HostSim.nullary_step ⟨rfl, rfl, rfl, rfl, rfl⟩ HEq.rfl) ?_)
local macro "una" : tactic => `(tactic| refine Sim.cons (HostSim.unary_step ⟨rfl, rfl, rfl, by decide, rfl⟩ ⟨rfl, rfl, rfl, rfl, rfl⟩ HEq.rfl) ?_)
local macro "bin" : tactic => `(tactic| refine Sim.cons (HostSim.binary_step ⟨rfl, rfl, rfl, by decide, rfl⟩ ⟨rfl, rfl, rfl, by decide, rfl⟩ ⟨rfl, rfl, rfl, rfl, rfl⟩ HEq.rfl) ?_)
local macro "ter" : tactic => `(tactic| refine Sim.cons (HostSim.ternary_step ⟨rfl, rfl, rfl, by decide, rfl⟩ ⟨rfl, rfl, rfl, by decide, rfl⟩ ⟨rfl, rfl, rfl, by decide, rfl⟩ ⟨rfl, rfl, rfl, rfl, rfl⟩ HEq.rfl) ?_)
local macro "rsh" : tactic => `(tactic| refine Sim.cons (HostSim.reshape_step ⟨rfl, rfl, rfl, by decide, rfl⟩ ⟨rfl, rfl, rfl, rfl, rfl⟩) ?_)

/-- The first stretch on both sides: buffers 4 to 21. -/
theorem sim_edges : Sim (Val := Elt F) 4 (Cert.KernelIdeal.Gen.hostOps0) (Cert.ReferenceIdeal.Split.edgesAndDegrees) 22 := by
  nul; una; rsh; bin; una; rsh; bin; nul; una; nul; una; una; ter; nul; una; bin; una; nul
  exact Sim.nil _

/-- The outlined choice on both sides: buffers 22 to 24. -/
theorem sim_where : Sim (Val := Elt F) 22 (Cert.KernelIdeal.Gen.hostOps0_1) (Cert.ReferenceIdeal.Split.whereCall) 25 := by
  una; una; ter
  exact Sim.nil _

/-- The edge weights on both sides: buffers 25 to 43. -/
theorem sim_weights : Sim (Val := Elt F) 25 (Cert.KernelIdeal.Gen.hostOps0_2) (Cert.ReferenceIdeal.Split.edgeWeights) 44 := by
  nul; una; bin; nul; una; bin; ter; una; bin; nul; una; bin; nul; una; bin; ter; una; bin; bin
  exact Sim.nil _

end Cert.Bridge

end
-- ==== Proof.BiasRelu.lean ====
import proofs.«115135_j48086453846714_1_alg».proof.Proof.Gen.KernelIdeal.Frame
import Idealize.ShloMosaic.Lib.ValueIdx
import Idealize.ShloMosaic.Lib.ValueLayout
import Idealize.ShloMosaic.Lib.Pipeline.Value

set_option maxRecDepth 16384

noncomputable section

namespace Cert.KernelIdeal.BiasRelu

open Idealize.ShloMosaic Idealize.ShloMosaic.TcCoe Idealize.ShloMosaic.ValueIdx
open Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The aggregated rows as the second region finds them. -/
abbrev agg (c : Dev nD) : S100000x128.Idx → EReal := V c main_v44
/-- The bias as a one-row matrix, as the second region finds it. -/
abbrev bias (c : Dev nD) : S1x128.Idx → EReal := V c main_v45

/-- What the second region leaves in its result: every entry of the aggregate plus its column's bias, cut off below at zero. -/
def biasRelu (a : S100000x128.Idx → EReal) (b : S1x128.Idx → EReal) : S100000x128.Idx → EReal :=
  fun i => max (a i + b (ix2 (0 : Fin 1) (i 1))) (Ideal.ofBits .f32 0x00000000#32)

/-- The body's payload at a row and a column: the loaded entry plus the one-row operand at that column, against zero. -/
theorem payload_apply (x0 : Vec Ideal S10000x128 .f32) (x1 : Vec Ideal S1x128 .f32) (p : Fin 10000) (q : Fin 128) :
    k1_pay1 (F := Ideal) x0 x1 (ix2 p q) = max (x0 (ix2 p q) + x1 (ix2 (0 : Fin 1) q)) (Ideal.ofBits .f32 0x00000000#32) := by
  unfold k1_pay1
  rw [maximumf_apply, addf_apply, broadcast_apply, shapeCast_self, shapeCast_self, broadcastTo_1b_ab_apply]
  rfl

/-- The printed index maps over the ten grid points: the aggregate's window and the result's move together, block
    `t` of rows at point `t`; the bias window stays on its one block. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the whole-array function. -/
theorem flushed_eq (c : Dev nD) (t : Fin cfg1.N) :
    (dat1 V c).flushed 2 t = ((cfg1.win 2).blk t).view.read (Elt Ideal) (biasRelu (agg V c) (bias V c)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (payload_apply (iblk1 V c 0 t) (iblk1 V c 1 t) p q).trans ?_
  show max (agg V c (((cfg1.win 0).blk t).view.emb (ix2 p q)) + bias V c (((cfg1.win 1).blk t).view.emb (ix2 (0 : Fin 1) q))) _
     = max (agg V c (((cfg1.win 2).blk t).view.emb (ix2 p q)) + bias V c (ix2 (0 : Fin 1) ((((cfg1.win 2).blk t).view.emb (ix2 p q)) 1))) _
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 (0 : Fin 1) q) = ix2 (0 : Fin 1) ((((cfg1.win 2).blk t).view.emb (ix2 p q)) 1) := by
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]
  rfl

/-- An index is in point `t`'s block iff each coordinate is in the block's range on its axis. -/
theorem mem_blk (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v46).slice (win1_2.rect t)).set ↔ _
  rw [View.set_slice_whole, Rect.mem_set_unit]
  exact Iff.rfl

/-- The ten blocks of 10000 rows tile the 100000 rows: row `r` lies in block `r / 10000`. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 10000, by rw [show cfg1.N = 10 from N_1]; omega⟩, flush1_2 _, ?_⟩
  rw [mem_blk]
  obtain ⟨-, -, -, -, e4, e5⟩ := idx_facts ⟨(i 0).val / 10000, by rw [show cfg1.N = 10 from N_1]; omega⟩
  intro a
  match a with
  | ⟨0, _⟩ => show win1_2.index _ (0 : Fin 2) * 10000 ≤ (i 0).val ∧ (i 0).val < win1_2.index _ (0 : Fin 2) * 10000 + 10000; rw [e4]; show (i 0).val / 10000 * 10000 ≤ (i 0).val ∧ (i 0).val < (i 0).val / 10000 * 10000 + 10000; omega
  | ⟨1, _⟩ => show win1_2.index _ (1 : Fin 2) * 128 ≤ (i 1).val ∧ (i 1).val < win1_2.index _ (1 : Fin 2) * 128 + 128; rw [e5]; omega

/-- The second region's result array after the region, whatever contents it is entered with: the aggregate plus
    the bias row, cut off below at zero, entry by entry. -/
theorem arr_eq (c : Dev nD) : (dat1 V c).arrAt 2 cfg1.N = biasRelu (agg V c) (bias V c) :=
  (dat1 V c).arrAt_eq_of_cover 2 (biasRelu (agg V c) (bias V c)) (fun t _ => flushed_eq V c t) (cover)

end Cert.KernelIdeal.BiasRelu

end
-- ==== Proof.Tails.lean ====
import proofs.«115135_j48086453846714_1_alg».proof.Proof.RefSplit
import proofs.«115135_j48086453846714_1_alg».proof.Proof.BiasRelu
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.StableHlo Idealize.ShloMosaic.TcCoe Idealize.SL.Sem Idealize.ShloMosaic.ValueIdx

/-- On the extended reals a change of float format is the identity, on whole arrays too. -/
theorem extf_id {s : Shape} (v : FVec Ideal s .bf16) (h : FTy.bits .bf16 < FTy.bits .f32) : extf .f32 v h = v := rfl

/-- A vector of 128 entries viewed as a one-row matrix reads, in its one row, the vector's entry at the column. -/
theorem row_of_vec (b : Cert.KernelIdeal.S128.Idx → EReal) (h : Cert.KernelIdeal.S128.ShapeCasts Cert.KernelIdeal.S1x128) (q : Fin 128) :
    shapeCast Cert.KernelIdeal.S1x128 b h (ix2 (0 : Fin 1) q) = b (ix1 q) := by
  refine (shapeCast_addUnit_apply ![128] b h (ix2 (0 : Fin 1) q)).trans (congrArg b ?_)
  funext a; match a with | ⟨0, _⟩ => rfl

/-- The same vector broadcast first to a one-row matrix and then over all rows reads, at any row, its entry at the column. -/
theorem rows_of_vec (b : Cert.ReferenceIdeal.S128.Idx → EReal) (p : Fin 100000) (q : Fin 128) :
    broadcastInDim Cert.ReferenceIdeal.S100000x128 ![0, 1] Cert.ReferenceIdeal.Gen.bcast_S1x128_S100000x128_0_1
      (broadcastInDim Cert.ReferenceIdeal.S1x128 ![1] Cert.ReferenceIdeal.Gen.bcast_S128_S1x128_1 b) (ix2 p q) = b (ix1 q) := by
  refine (broadcastInDim_apply (s := Cert.ReferenceIdeal.S1x128) (t := Cert.ReferenceIdeal.S100000x128) ![0, 1] Cert.ReferenceIdeal.Gen.bcast_S1x128_S100000x128_0_1 _ (ix2 p q) (ix2 (0 : Fin 1) q)
    (fun a => by match a with | ⟨0, _⟩ => rfl | ⟨1, _⟩ => rfl)).trans ?_
  exact broadcastInDim_apply (s := Cert.ReferenceIdeal.S128) (t := Cert.ReferenceIdeal.S1x128) ![1] Cert.ReferenceIdeal.Gen.bcast_S128_S1x128_1 b (ix2 (0 : Fin 1) q) (ix1 q)
    (fun a => by match a with | ⟨0, _⟩ => rfl)

variable (Wk : Valuation Cert.KernelIdeal.τ Cert.KernelIdeal.sig (Elt Ideal)) (X : Valuation Cert.ReferenceIdeal.τ Cert.ReferenceIdeal.sig (Elt Ideal))

set_option maxHeartbeats 2000000 in
/-- The two programs' last stretches, from contents that agree where they read them. The kernel's program gathers
    rows of its first region's result, scales them by the edge weights, adds them up per target node, and its second
    region adds the bias and cuts off at zero; the reference does the same with the host's matrix product in the
    place of the first region's result and host operations in the place of the second region. Entry by entry both
    are the larger of zero and the aggregate plus the column's bias. -/
theorem tails_agree
    (h3 : Wk (Proc.devRef .tc Cert.KernelIdeal.main_v3) = X (Proc.devRef .tc Cert.ReferenceIdeal.main_v3))
    (h6 : Wk (Proc.devRef .tc Cert.KernelIdeal.main_v6) = X (Proc.devRef .tc Cert.ReferenceIdeal.main_v6))
    (h29 : Wk (Proc.devRef .tc Cert.KernelIdeal.main_v29) = X (Proc.devRef .tc Cert.ReferenceIdeal.main_v29))
    (hxw : (Wk (Proc.devRef .tc Cert.KernelIdeal.main_v30) : Cert.KernelIdeal.S100000x128.Idx → EReal) = (Host.dotGeneral (F := Ideal) (φ₁ := .f32) (φ₂ := .f32) Cert.ReferenceIdeal.dot_S100000x128_S128x128_S100000x128_1_0_0_1_n_n none (X (Proc.devRef .tc Cert.ReferenceIdeal.main_arg0)) (X (Proc.devRef .tc Cert.ReferenceIdeal.main_arg2)) : Cert.KernelIdeal.S100000x128.Idx → EReal))
    (hb : Wk (Proc.devRef .tc Cert.KernelIdeal.main_arg3) = X (Proc.devRef .tc Cert.ReferenceIdeal.main_arg3)) :
    Cert.KernelIdeal.BiasRelu.biasRelu (StableHlo.after Cert.KernelIdeal.Gen.hostOps1 Wk (Proc.devRef .tc Cert.KernelIdeal.main_v44)) (StableHlo.after Cert.KernelIdeal.Gen.hostOps1 Wk (Proc.devRef .tc Cert.KernelIdeal.main_v45))
      = maximumf (F := Ideal) (StableHlo.after Cert.ReferenceIdeal.Split.productToSum X (Proc.devRef .tc Cert.ReferenceIdeal.main_v46) : (⟨Cert.ReferenceIdeal.S100000x128, .f32⟩ : BufTy).Contents (Elt Ideal))
          (broadcastInDim Cert.ReferenceIdeal.S100000x128 ![] Cert.ReferenceIdeal.Gen.bcast_S_S100000x128 (constant Cert.ReferenceIdeal.S_ .f32 0x00000000#32)) := by
  after_results_simp
  rw [h3, h6, h29, hb, hxw, extf_id]
  generalize X (Proc.devRef .tc Cert.ReferenceIdeal.main_v3) = s
  generalize X (Proc.devRef .tc Cert.ReferenceIdeal.main_v6) = d
  generalize X (Proc.devRef .tc Cert.ReferenceIdeal.main_v29) = n
  generalize X (Proc.devRef .tc Cert.ReferenceIdeal.main_arg3) = b
  generalize Host.dotGeneral (F := Ideal) (φ₁ := .f32) (φ₂ := .f32) Cert.ReferenceIdeal.dot_S100000x128_S128x128_S100000x128_1_0_0_1_n_n none (X (Proc.devRef .tc Cert.ReferenceIdeal.main_arg0)) (X (Proc.devRef .tc Cert.ReferenceIdeal.main_arg2)) = xw
  funext i
  obtain ⟨p, q, rfl⟩ : ∃ (p : Fin 100000) (q : Fin 128), i = ix2 p q := ⟨i 0, i 1, eq_ix2 i⟩
  unfold Cert.KernelIdeal.BiasRelu.biasRelu
  rw [maximumf_apply, addf_apply]
  refine congrArg₂ max (congrArg₂ HAdd.hAdd ?_ ?_) ?_
  · rfl
  · exact (row_of_vec b _ q).trans (rows_of_vec b p q).symm
  · rfl

end Cert.Bridge

end
-- ==== Proof.MatMul.lean ====
import proofs.«115135_j48086453846714_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.MatMul

open Idealize.ShloMosaic Idealize.ShloMosaic.TcCoe Idealize.ShloMosaic.ValueIdx
open Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The node features as the first region finds them. -/
abbrev feats (c : Dev nD) : S100000x128.Idx → EReal := V c main_arg0
/-- The weight matrix as the first region finds it. -/
abbrev weights (c : Dev nD) : S128x128.Idx → EReal := V c main_arg2

/-- The product of the feature matrix with the weight matrix, entry by entry: row `r` of the features against
    column `q` of the weights, summed over the 128 shared coordinates. -/
def product (x : S100000x128.Idx → EReal) (w : S128x128.Idx → EReal) : S100000x128.Idx → EReal :=
  fun i => ∑ k : Fin 128, x (ix2 (i 0) k) * w (ix2 k (i 1))

/-! The block product's operand indices, axis by axis. -/

theorem lhs_0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs_1 (i : S10000x128.Idx) (q : dot_S10000x128_S128x128_S10000x128_1_0_0_1_n_n.contr.Idx) : (dot_S10000x128_S128x128_S10000x128_1_0_0_1_n_n.lhsIdx i q 1).val = (q ⟨0, by decide⟩).val :=
  dot_S10000x128_S128x128_S10000x128_1_0_0_1_n_n.lhsIdx_val_of_single rfl i q
theorem rhs_0 (i : S10000x128.Idx) (q : dot_S10000x128_S128x128_S10000x128_1_0_0_1_n_n.contr.Idx) : (dot_S10000x128_S128x128_S10000x128_1_0_0_1_n_n.rhsIdx i q 0).val = (q ⟨0, by decide⟩).val :=
  dot_S10000x128_S128x128_S10000x128_1_0_0_1_n_n.rhsIdx_val_of_single rfl i q
theorem rhs_1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The body's payload at a row and a column of the block: the changes of float format are the identity on the
    extended reals and the product into a zero accumulator is the plain sum over the shared coordinate. -/
theorem payload_apply (x0 : Vec Ideal S10000x128 .f32) (x1 : Vec Ideal S128x128 .f32) (p : Fin 10000) (q : Fin 128) :
    k0_pay1 (F := Ideal) x0 x1 (ix2 p q) = ∑ k : Fin 128, x0 (ix2 p k) * x1 (ix2 k q) := by
  unfold k0_pay1
  show FloatOps.matmul (F := Ideal) dot_S10000x128_S128x128_S10000x128_1_0_0_1_n_n none (truncf .bf16 (x0 : FVec Ideal S10000x128 .f32) bitsLt_bf16_f32) (truncf .bf16 (x1 : FVec Ideal S128x128 .f32) bitsLt_bf16_f32) (constant S10000x128 .f32 0x00000000#32) (ix2 p q) = _
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhs_0 _ _
    | ⟨1, _⟩ => exact (lhs_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The printed index maps over the ten grid points: the features' window and the result's move together, block
    `t` of rows at point `t`, all 128 columns; the weights' window stays on its one block. -/
theorem idx_facts : ∀ t : Fin cfg0.N, win0_0.index t (0 : Fin 2) = win0_2.index t (0 : Fin 2)
    ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product: a row of the block is a row of the features, and
    the weights are read whole. -/
theorem flushed_eq (c : Dev nD) (t : Fin cfg0.N) :
    (dat0 V c).flushed 2 t = ((cfg0.win 2).blk t).view.read (Elt Ideal) (product (feats V c) (weights V c)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  obtain ⟨e0, e1, e2, e3, e4, e5⟩ := idx_facts t
  funext j
  obtain ⟨p, q, rfl⟩ : ∃ (p : Fin 10000) (q : Fin 128), j = ix2 p q := ⟨j 0, j 1, eq_ix2 j⟩
  refine (payload_apply (iblk0 V c 0 t) (iblk0 V c 1 t) p q).trans ?_
  show ∑ k : Fin 128, feats V c (((cfg0.win 0).blk t).view.emb (ix2 p k)) * weights V c (((cfg0.win 1).blk t).view.emb (ix2 k q))
     = product (feats V c) (weights V c) (((cfg0.win 2).blk t).view.emb (ix2 p q))
  unfold product
  refine Finset.sum_congr rfl fun k _ => ?_
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 10000 + 1 * p.val = win0_2.index t (0 : Fin 2) * 10000 + 1 * p.val; omega
    | ⟨1, _⟩ => show win0_0.index t (1 : Fin 2) * 128 + 1 * k.val = k.val; omega
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]
  rfl

/-- An index is in point `t`'s block iff each coordinate is in the block's range on its axis. -/
theorem mem_blk (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v30).slice (win0_2.rect t)).set ↔ _
  rw [View.set_slice_whole, Rect.mem_set_unit]
  exact Iff.rfl

/-- The ten blocks of 10000 rows tile the 100000 rows: row `r` lies in block `r / 10000`. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 10000, by rw [show cfg0.N = 10 from N_0]; omega⟩, flush0_2 _, ?_⟩
  rw [mem_blk]
  obtain ⟨-, -, -, -, e4, e5⟩ := idx_facts ⟨(i 0).val / 10000, by rw [show cfg0.N = 10 from N_0]; omega⟩
  intro a
  match a with
  | ⟨0, _⟩ => show win0_2.index _ (0 : Fin 2) * 10000 ≤ (i 0).val ∧ (i 0).val < win0_2.index _ (0 : Fin 2) * 10000 + 10000; rw [e4]; show (i 0).val / 10000 * 10000 ≤ (i 0).val ∧ (i 0).val < (i 0).val / 10000 * 10000 + 10000; omega
  | ⟨1, _⟩ => show win0_2.index _ (1 : Fin 2) * 128 ≤ (i 1).val ∧ (i 1).val < win0_2.index _ (1 : Fin 2) * 128 + 128; rw [e5]; omega

/-- The first region's result array after the region, whatever contents it is entered with: the product of the
    features with the weights, entry by entry. -/
theorem arr_eq (c : Dev nD) : (dat0 V c).arrAt 2 cfg0.N = product (feats V c) (weights V c) :=
  (dat0 V c).arrAt_eq_of_cover 2 (product (feats V c) (weights V c)) (fun t _ => flushed_eq V c t) (cover)

end Cert.KernelIdeal.MatMul

end
-- ==== Proof.DotJoin.lean ====
import proofs.«115135_j48086453846714_1_alg».proof.Proof.MatMul
import proofs.«115135_j48086453846714_1_alg».proof.Proof.Gen.ReferenceIdeal
import Idealize.ShloMosaic.Lib.ValueIdx
import Idealize.ShloMosaic.PureOps.Ideal.Laws

set_option maxRecDepth 16384

noncomputable section

open scoped BigOperators

namespace Cert.Bridge

open Idealize.ShloMosaic Idealize.ShloMosaic.TcCoe Idealize.ShloMosaic.ValueIdx Idealize.SL.Sem

/-! The reference's matrix product, one whole `dot_general` on the host, read at an entry: its operand indices, axis by axis. -/

theorem dotL_0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
theorem dotL_1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
theorem dotR_0 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
theorem dotR_1 (i : Cert.ReferenceIdeal.S100000x128.Idx) (q : Cert.ReferenceIdeal.dot_S100000x128_S128x128_S100000x128_1_0_0_1_n_n.contr.Idx) : (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- On the extended reals the host's whole matrix product is, entry by entry, the row-by-column sum the kernel's ten
    blocks add up to: both are the plain sum over the 128 shared coordinates, in whatever order. -/
theorem product_eq_dot (x : Cert.ReferenceIdeal.S100000x128.Idx → EReal) (w : Cert.ReferenceIdeal.S128x128.Idx → EReal) :
    Cert.KernelIdeal.MatMul.product x w = Host.dotGeneral (F := Ideal) (φ₁ := .f32) (φ₂ := .f32) Cert.ReferenceIdeal.dot_S100000x128_S128x128_S100000x128_1_0_0_1_n_n none x w := by
  funext i
  symm
  simp only [Host.dotGeneral]
  rw [Ideal.dotGeneral_apply, ← Equiv.sum_comp (ValueIdx.contrEquiv1 Cert.ReferenceIdeal.dot_S100000x128_S128x128_S100000x128_1_0_0_1_n_n 128 rfl rfl).symm]
  unfold Cert.KernelIdeal.MatMul.product
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx i ((ValueIdx.contrEquiv1 Cert.ReferenceIdeal.dot_S100000x128_S128x128_S100000x128_1_0_0_1_n_n 128 rfl rfl).symm k) = ix2 (i 0) k := funext fun a => Fin.ext (by
    match a with
    | ⟨0, _⟩ => exact dotL_0 _ _
    | ⟨1, _⟩ => exact (dotL_1 _ _).trans hk)
  have er : Cert.ReferenceIdeal.dot_S100000x128_S128x128_S100000x128_1_0_0_1_n_n.rhsIdx i ((ValueIdx.contrEquiv1 Cert.ReferenceIdeal.dot_S100000x128_S128x128_S100000x128_1_0_0_1_n_n 128 rfl rfl).symm k) = ix2 k (i 1) := funext fun a => Fin.ext (by
    match a with
    | ⟨0, _⟩ => exact (dotR_0 _ _).trans hk
    | ⟨1, _⟩ => exact dotR_1 _ _)
  rw [el, er]
  rfl

end Cert.Bridge

end
-- ==== Proof.Assemble.lean ====
import proofs.«115135_j48086453846714_1_alg».proof.Defs
import proofs.«115135_j48086453846714_1_alg».proof.Proof.Gen.Kernel.Frame
import proofs.«115135_j48086453846714_1_alg».proof.Proof.Gen.Pre_finite_inputs
import proofs.«115135_j48086453846714_1_alg».proof.Proof.Prefix
import proofs.«115135_j48086453846714_1_alg».proof.Proof.Tails
import proofs.«115135_j48086453846714_1_alg».proof.Proof.DotJoin
import proofs.«115135_j48086453846714_1_alg».proof.Proof.KRun
import proofs.«115135_j48086453846714_1_alg».proof.Proof.MatMul
import proofs.«115135_j48086453846714_1_alg».proof.Proof.BiasRelu
import proofs.«115135_j48086453846714_1_alg».proof.Proof.RefSplit

set_option maxRecDepth 16384

noncomputable section

namespace Cert.Bridge

open Idealize.ShloMosaic Idealize.ShloMosaic.StableHlo Idealize.ShloMosaic.TcCoe Idealize.SL.Sem Idealize.ShloMosaic.ValueIdx HostSim
open Cert.KernelIdeal.Gen (W0 W3 W4 W5 W6 V3 V5 W4_arr W4_of_ne W6_arr dat0 dat1)

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)

/-- The two launch memories hold the same four arguments, on every core. -/
def SameArgs : Prop := ∀ c : Dev Cert.KernelIdeal.nD,
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)

/-- At launch the two programs' buffers agree below index 4: the arguments. -/
theorem agree_launch (hag : SameArgs m m') (c : Dev Cert.KernelIdeal.nD) : Agree 4 (W0 m ρ c) (launchContents m' c) := by
  intro a b ha hb hab hlt
  obtain ⟨h0, h1, h2, h3⟩ := hag c
  have hcases : a.idx.val = 0 ∨ a.idx.val = 1 ∨ a.idx.val = 2 ∨ a.idx.val = 3 := by omega
  rcases hcases with e | e | e | e
  · have ea : a = Cert.KernelIdeal.main_arg0 := HostSim.ref_ext ha rfl e
    have eb : b = Cert.ReferenceIdeal.main_arg0 := HostSim.ref_ext hb rfl (hab.symm.trans e)
    subst ea; subst eb
    exact heq_of_eq h0.symm
  · have ea : a = Cert.KernelIdeal.main_arg1 := HostSim.ref_ext ha rfl e
    have eb : b = Cert.ReferenceIdeal.main_arg1 := HostSim.ref_ext hb rfl (hab.symm.trans e)
    subst ea; subst eb
    exact heq_of_eq h1.symm
  · have ea : a = Cert.KernelIdeal.main_arg2 := HostSim.ref_ext ha rfl e
    have eb : b = Cert.ReferenceIdeal.main_arg2 := HostSim.ref_ext hb rfl (hab.symm.trans e)
    subst ea; subst eb
    exact heq_of_eq h2.symm
  · have ea : a = Cert.KernelIdeal.main_arg3 := HostSim.ref_ext ha rfl e
    have eb : b = Cert.ReferenceIdeal.main_arg3 := HostSim.ref_ext hb rfl (hab.symm.trans e)
    subst ea; subst eb
    exact heq_of_eq h3.symm

/-- When the kernel's program reaches its first region and the reference its matrix product, every buffer written so
    far, and every argument, holds the same contents in both. -/
theorem agree_product (hag : SameArgs m m') (c : Dev Cert.KernelIdeal.nD) : Agree 44 (W3 m ρ c) (Cert.ReferenceIdeal.Split.atProduct (launchContents m' c)) :=
  sim_weights.after (sim_where.after (sim_edges.after (agree_launch m ρ m' hag c)))

/-- The kernel program's result buffer, at the contents its last segment boundary gives it, is the reference's result:
    the second region's array is the larger of zero and its aggregate plus the bias (whatever it is entered with); its
    aggregate is the shared host stretch applied to the first region's array, which is the matrix product the reference
    takes on the host; and everything else that stretch reads was left equal by the two programs' common beginning. -/
theorem final_eq (hag : SameArgs m m') (c : Dev Cert.KernelIdeal.nD) :
    W6 m ρ c (Proc.devRef .tc Cert.KernelIdeal.main_v46)
      = maximumf (F := Ideal) (StableHlo.after Cert.ReferenceIdeal.Split.productToSum (Cert.ReferenceIdeal.Split.atProduct (launchContents m' c)) (Proc.devRef .tc Cert.ReferenceIdeal.main_v46) : (⟨Cert.ReferenceIdeal.S100000x128, .f32⟩ : BufTy).Contents (Elt Ideal))
          (broadcastInDim Cert.ReferenceIdeal.S100000x128 ![] Cert.ReferenceIdeal.Gen.bcast_S_S100000x128 (constant Cert.ReferenceIdeal.S_ .f32 0x00000000#32)) := by
  have hA := agree_product m ρ m' hag c
  have h3 : W4 m ρ c (Proc.devRef .tc Cert.KernelIdeal.main_v3) = Cert.ReferenceIdeal.Split.atProduct (launchContents m' c) (Proc.devRef .tc Cert.ReferenceIdeal.main_v3) :=
    (W4_of_ne m ρ c Cert.KernelIdeal.main_v3 (by decide)).trans (eq_of_heq (hA Cert.KernelIdeal.main_v3 Cert.ReferenceIdeal.main_v3 rfl rfl rfl (by decide)))
  have h6 : W4 m ρ c (Proc.devRef .tc Cert.KernelIdeal.main_v6) = Cert.ReferenceIdeal.Split.atProduct (launchContents m' c) (Proc.devRef .tc Cert.ReferenceIdeal.main_v6) :=
    (W4_of_ne m ρ c Cert.KernelIdeal.main_v6 (by decide)).trans (eq_of_heq (hA Cert.KernelIdeal.main_v6 Cert.ReferenceIdeal.main_v6 rfl rfl rfl (by decide)))
  have h29 : W4 m ρ c (Proc.devRef .tc Cert.KernelIdeal.main_v29) = Cert.ReferenceIdeal.Split.atProduct (launchContents m' c) (Proc.devRef .tc Cert.ReferenceIdeal.main_v29) :=
    (W4_of_ne m ρ c Cert.KernelIdeal.main_v29 (by decide)).trans (eq_of_heq (hA Cert.KernelIdeal.main_v29 Cert.ReferenceIdeal.main_v29 rfl rfl rfl (by decide)))
  have hb : W4 m ρ c (Proc.devRef .tc Cert.KernelIdeal.main_arg3) = Cert.ReferenceIdeal.Split.atProduct (launchContents m' c) (Proc.devRef .tc Cert.ReferenceIdeal.main_arg3) :=
    (W4_of_ne m ρ c Cert.KernelIdeal.main_arg3 (by decide)).trans (eq_of_heq (hA Cert.KernelIdeal.main_arg3 Cert.ReferenceIdeal.main_arg3 rfl rfl rfl (by decide)))
  have h0 : W3 m ρ c (Proc.devRef .tc Cert.KernelIdeal.main_arg0) = Cert.ReferenceIdeal.Split.atProduct (launchContents m' c) (Proc.devRef .tc Cert.ReferenceIdeal.main_arg0) :=
    eq_of_heq (hA Cert.KernelIdeal.main_arg0 Cert.ReferenceIdeal.main_arg0 rfl rfl rfl (by decide))
  have h2 : W3 m ρ c (Proc.devRef .tc Cert.KernelIdeal.main_arg2) = Cert.ReferenceIdeal.Split.atProduct (launchContents m' c) (Proc.devRef .tc Cert.ReferenceIdeal.main_arg2) :=
    eq_of_heq (hA Cert.KernelIdeal.main_arg2 Cert.ReferenceIdeal.main_arg2 rfl rfl rfl (by decide))
  have hxw : (W4 m ρ c (Proc.devRef .tc Cert.KernelIdeal.main_v30) : Cert.KernelIdeal.S100000x128.Idx → EReal)
      = (Host.dotGeneral (F := Ideal) (φ₁ := .f32) (φ₂ := .f32) Cert.ReferenceIdeal.dot_S100000x128_S128x128_S100000x128_1_0_0_1_n_n none
          (Cert.ReferenceIdeal.Split.atProduct (launchContents m' c) (Proc.devRef .tc Cert.ReferenceIdeal.main_arg0)) (Cert.ReferenceIdeal.Split.atProduct (launchContents m' c) (Proc.devRef .tc Cert.ReferenceIdeal.main_arg2)) : Cert.KernelIdeal.S100000x128.Idx → EReal) := by
    refine (W4_arr m ρ c 2).trans ((Cert.KernelIdeal.MatMul.arr_eq (V3 m ρ) c).trans ?_)
    show Cert.KernelIdeal.MatMul.product (W3 m ρ c (Proc.devRef .tc Cert.KernelIdeal.main_arg0)) (W3 m ρ c (Proc.devRef .tc Cert.KernelIdeal.main_arg2)) = _
    rw [h0, h2]
    exact product_eq_dot _ _
  exact (W6_arr m ρ c 2).trans ((Cert.KernelIdeal.BiasRelu.arr_eq (V5 m ρ) c).trans
    (tails_agree (W4 m ρ c) (Cert.ReferenceIdeal.Split.atProduct (launchContents m' c)) h3 h6 h29 hxw hb))

end Cert.Bridge

namespace Cert.Bridge

open Idealize.ShloMosaic Idealize.ShloMosaic.TcCoe Idealize.SL.Sem

/-! ## The claims -/

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Split.run_after (F := Ideal) m ρ)

/-- From memories that agree on the four arguments both idealized programs run, and the kernel program's result
    buffer ends with what the reference's does (`final_eq`); both leave their arguments as launched. -/
theorem algebraic : Cert.algebraic_KernelIdeal_ReferenceIdeal := by
  intro m ρ m' ρ' _ hag
  refine ⟨fun c => Cert.KernelIdeal.Gen.W6 m ρ c (Proc.devRef .tc Cert.KernelIdeal.main_v46), Cert.KernelIdeal.Gen.run_val m ρ, ?_⟩
  exact (θ_run Cert.ReferenceIdeal.defs _ _).mono (fun r h c => ⟨(h c).1.trans (final_eq m ρ m' hag c).symm, (h c).2⟩)
    (Cert.ReferenceIdeal.Split.run_after (F := Ideal) m' ρ')

end Cert.Bridge

end
-- ==== Proof.lean ====
/- The proof of `Cert.Claim`: a graph convolution layer, `relu (A (x W) + b)`, where `A` adds up, per target node, the rows
   of `x W` at the source nodes of its edges (self loops added), each scaled by the product of the two endpoints' inverse
   square-root degrees.

   The kernel's program takes the matrix product `x W` in a first region, ten blocks of 10000 rows, each block's rows
   against the whole weight matrix, through a narrower float format that is the identity on the extended reals; gathers,
   scales and adds up on the host; and adds the bias and cuts off at zero in a second region, again ten blocks of 10000
   rows. The reference takes one whole matrix product on the host and does everything else there too.

   The two programs begin with the same host operations (edge lists, degrees, edge weights) into buffers of the same
   numbers, so run side by side from memories that agree on the arguments they leave the same contents, no operation
   being opened (Proof/Prefix.lean over Proof/LibHostSim.lean). The first region's array is the row-by-column sums
   (Proof/MatMul.lean), which is the host's product at the ideal values (Proof/DotJoin.lean). The second region's array is
   the larger of zero and its aggregate plus the column's bias (Proof/BiasRelu.lean). The host stretch between the
   regions and the reference's matching stretch are the same operations on equal operands, and the two spellings of the
   bias and of the cut-off read the same at every entry (Proof/Tails.lean). No law needs the inputs finite: sums are
   only regrouped, never distributed over.

   The frames of the two kernel programs are the generated ones; the reference's is its run with the result dropped.
   The idealization rewrote nothing, so `preserves` is `True`. -/
import proofs.«115135_j48086453846714_1_alg».proof.Defs
import proofs.«115135_j48086453846714_1_alg».proof.Proof.Gen.Kernel
import proofs.«115135_j48086453846714_1_alg».proof.Proof.Gen.Kernel.Frame
import proofs.«115135_j48086453846714_1_alg».proof.Proof.Gen.KernelIdeal
import proofs.«115135_j48086453846714_1_alg».proof.Proof.Gen.KernelIdeal.Frame
import proofs.«115135_j48086453846714_1_alg».proof.Proof.Gen.ReferenceIdeal
import proofs.«115135_j48086453846714_1_alg».proof.Proof.Gen.Pre_finite_inputs
import proofs.«115135_j48086453846714_1_alg».proof.Proof.Assemble
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Cert.Bridge.frame_kernel, Cert.Bridge.frame_kernelIdeal, Cert.Bridge.frame_referenceIdeal, trivial, Cert.Bridge.algebraic⟩

end Cert.Proof

end
